-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x196x1024 : Shape := ⟨3, ![128, 196, 1024]⟩
abbrev S16 : Shape := ⟨1, ![16]⟩
abbrev S1024x1024 : Shape := ⟨2, ![1024, 1024]⟩
abbrev S1024 : Shape := ⟨1, ![1024]⟩
abbrev S11x1024x4 : Shape := ⟨3, ![11, 1024, 4]⟩
abbrev S11x4x1024 : Shape := ⟨3, ![11, 4, 1024]⟩
abbrev S_ : Shape := ⟨0, ![]⟩

class Facts : Prop where
  bcast_S_S128x196x1024 : S_.BroadcastsInDim S128x196x1024 (![] : Fin 0 → Fin S128x196x1024.rank)
  reducesTo_S128x196x1024_S_d0_1_2 : S128x196x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S11x1024x4 : S_.BroadcastsInDim S11x1024x4 (![] : Fin 0 → Fin S11x1024x4.rank)
  reducesTo_S11x1024x4_S_d0_1_2 : S11x1024x4.ReducesTo [0, 1, 2] S_
  bcast_S_S11x4x1024 : S_.BroadcastsInDim S11x4x1024 (![] : Fin 0 → Fin S11x4x1024.rank)
  reducesTo_S11x4x1024_S_d0_1_2 : S11x4x1024.ReducesTo [0, 1, 2] S_

variable [Facts]

def fn_part1 {F : FTy → Type} [FloatOps F] (main_arg5 : FVec F S11x4x1024 .f32) (main_v13 : IVec S_ 1) (main_v16 : IVec S11x1024x4 1) : IVec S_ 1 :=
  let main_c_5 : IVec S_ 1 := constantI S_ 1 1#1
  let main_v17 : IVec S_ 1 := (fun x v => Host.reduce IntOp.andi x v reducesTo_S11x1024x4_S_d0_1_2 h_S_) main_v16 main_c_5
  let main_v18 : IVec S_ 1 := andi main_v13 main_v17
  let main_v19 : FVec F S11x4x1024 .f32 := Host.absf main_arg5
  let main_cst_6 : FVec F S_ .f32 := constant S_ .f32 0x7F800000#32
  let main_v20 : FVec F S11x4x1024 .f32 := broadcastInDim S11x4x1024 ![] bcast_S_S11x4x1024 main_cst_6
  let main_v21 : IVec S11x4x1024 1 := cmpf .olt main_v19 main_v20
  let main_c_7 : IVec S_ 1 := constantI S_ 1 1#1
  let main_v22 : IVec S_ 1 := (fun x v => Host.reduce IntOp.andi x v reducesTo_S11x4x1024_S_d0_1_2 h_S_) main_v21 main_c_7
  let main_v23 : IVec S_ 1 := andi main_v18 main_v22
  main_v23

def fn {F : FTy → Type} [FloatOps F] (main_arg0 : FVec F S128x196x1024 .f32) (main_arg1 : IVec S16 32) (main_arg2 : FVec F S1024x1024 .f32) (main_arg3 : FVec F S1024 .f32) (main_arg4 : FVec F S11x1024x4 .f32) (main_arg5 : FVec F S11x4x1024 .f32) : IVec S_ 1 :=
  let main_v0 : FVec F S128x196x1024 .f32 := Host.absf main_arg0
  let main_cst : FVec F S_ .f32 := constant S_ .f32 0x7F800000#32
  let main_v1 : FVec F S128x196x1024 .f32 := broadcastInDim S128x196x1024 ![] bcast_S_S128x196x1024 main_cst
  let main_v2 : IVec S128x196x1024 1 := cmpf .olt main_v0 main_v1
  let main_c : IVec S_ 1 := constantI S_ 1 1#1
  let main_v3 : IVec S_ 1 := (fun x v => Host.reduce IntOp.andi x v reducesTo_S128x196x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S11x1024x4 .f32 := Host.absf main_arg4
  let main_cst_4 : FVec F S_ .f32 := constant S_ .f32 0x7F800000#32
  let main_v15 : FVec F S11x1024x4 .f32 := broadcastInDim S11x1024x4 ![] bcast_S_S11x1024x4 main_cst_4
  let main_v16 : IVec S11x1024x4 1 := cmpf .olt main_v14 main_v15
  fn_part1 (F := F) main_arg5 main_v13 main_v16
-- ==== Kernel.lean ====
abbrev S128x196x1024 : Shape := ⟨3, ![128, 196, 1024]⟩
abbrev S16 : Shape := ⟨1, ![16]⟩
abbrev S1024x1024 : Shape := ⟨2, ![1024, 1024]⟩
abbrev S1024 : Shape := ⟨1, ![1024]⟩
abbrev S11x1024x4 : Shape := ⟨3, ![11, 1024, 4]⟩
abbrev S11x4x1024 : Shape := ⟨3, ![11, 4, 1024]⟩
abbrev S_ : Shape := ⟨0, ![]⟩
abbrev S1x1024 : Shape := ⟨2, ![1, 1024]⟩
abbrev S25088x1024 : Shape := ⟨2, ![25088, 1024]⟩
abbrev S1568x1024 : Shape := ⟨2, ![1568, 1024]⟩
abbrev S1x1024x4 : Shape := ⟨3, ![1, 1024, 4]⟩
abbrev S1 : Shape := ⟨1, ![1]⟩
abbrev S1x4x1024 : Shape := ⟨3, ![1, 4, 1024]⟩
abbrev S1024x4 : Shape := ⟨2, ![1024, 4]⟩
abbrev S4x1024 : Shape := ⟨2, ![4, 1024]⟩
abbrev S1568x4 : Shape := ⟨2, ![1568, 4]⟩

abbrev nBuf : Space → Nat
  | .hbm => 19
  | .vmem => 10
  | .smem => 1
  | _ => 0

abbrev bufTy : (tb : Table) → Fin (tcTables nBuf tb) → BufTy
  | .hbm, ⟨0, _⟩ => ⟨S128x196x1024, .f32⟩
  | .hbm, ⟨1, _⟩ => ⟨S16, .i32⟩
  | .hbm, ⟨2, _⟩ => ⟨S1024x1024, .f32⟩
  | .hbm, ⟨3, _⟩ => ⟨S1024, .f32⟩
  | .hbm, ⟨4, _⟩ => ⟨S11x1024x4, .f32⟩
  | .hbm, ⟨5, _⟩ => ⟨S11x4x1024, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S25088x1024, .f32⟩
  | .hbm, ⟨17, _⟩ => ⟨S25088x1024, .f32⟩
  | .hbm, ⟨18, _⟩ => ⟨S128x196x1024, .f32⟩
  | .local _ .vmem, ⟨0, _⟩ => ⟨S1568x1024, .f32⟩
  | .local _ .vmem, ⟨1, _⟩ => ⟨S1568x1024, .f32⟩
  | .local _ .vmem, ⟨2, _⟩ => ⟨S1024x1024, .bf16⟩
  | .local _ .vmem, ⟨3, _⟩ => ⟨S1x1024x4, .f32⟩
  | .local _ .vmem, ⟨4, _⟩ => ⟨S1x1024x4, .f32⟩
  | .local _ .vmem, ⟨5, _⟩ => ⟨S1x4x1024, .f32⟩
  | .local _ .vmem, ⟨6, _⟩ => ⟨S1x4x1024, .f32⟩
  | .local _ .vmem, ⟨7, _⟩ => ⟨S1x1024, .f32⟩
  | .local _ .vmem, ⟨8, _⟩ => ⟨S1568x1024, .f32⟩
  | .local _ .vmem, ⟨9, _⟩ => ⟨S1568x1024, .f32⟩
  | .local _ .smem, ⟨0, _⟩ => ⟨S16, .i32⟩
  | _, _ => ⟨S128x196x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_c_0 : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_call0_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_call0_v0.idx], fun | 0 => main_call0_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1568x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S16 : S_.BroadcastsInDim S16 (![] : Fin 0 → Fin S16.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S128x196x1024_S25088x1024 : S128x196x1024.ShapeCasts S25088x1024
  shapeCasts_S25088x1024_S128x196x1024 : S25088x1024.ShapeCasts S128x196x1024
  numel1_S1 : S1.numel = 1
  inb_S1568x1024_S1568x1024_0_0 : ∀ a, (![0, 0] : Fin 2 → Nat) a + S1568x1024.size a ≤ S1568x1024.size a
  h_S1568x1024 : 0 < S1568x1024.numel
  shapeCasts_S1568x1024_S1568x1024 : S1568x1024.ShapeCasts S1568x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1568x1024 : S1x1024.Broadcasts S1568x1024
  dot_S1568x1024_S1024x1024_S1568x1024_1_0_0_1_n_n_wf : DotDims.WF S1568x1024 S1024x1024 S1568x1024 [1] [0] [0] [1] [] []
  dot_S1568x1024_S1024x4_S1568x4_1_0_0_1_n_n_wf : DotDims.WF S1568x1024 S1024x4 S1568x4 [1] [0] [0] [1] [] []
  dot_S1568x4_S4x1024_S1568x1024_1_0_0_1_n_n_wf : DotDims.WF S1568x4 S4x1024 S1568x1024 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1568x1024.size a ≤ S25088x1024.size a
  hwx0_0 : ∀ i : grid0.Coords, EltTy.bits .f32 = 32 ∨ (Rect.block (s := S25088x1024) S1568x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1568x1024.size a ≤ S25088x1024.size a
  hwx0_5 : ∀ i : grid0.Coords, EltTy.bits .f32 = 32 ∨ (Rect.block (s := S25088x1024) S1568x1024.size (cc0_transform_5 i) (hinb0_5 i)).WholeWords (EltTy.packing .f32)

variable [Facts₀]

def dot_S1568x1024_S1024x1024_S1568x1024_1_0_0_1_n_n : DotDims S1568x1024 S1024x1024 S1568x1024 where
  lhsContracting := [1]
  rhsContracting := [0]
  lhsNonContracting := [0]
  rhsNonContracting := [1]
  lhsBatch := []
  rhsBatch := []
  wf := dot_S1568x1024_S1024x1024_S1568x1024_1_0_0_1_n_n_wf
def dot_S1568x1024_S1024x4_S1568x4_1_0_0_1_n_n : DotDims S1568x1024 S1024x4 S1568x4 where
  lhsContracting := [1]
  rhsContracting := [0]
  lhsNonContracting := [0]
  rhsNonContracting := [1]
  lhsBatch := []
  rhsBatch := []
  wf := dot_S1568x1024_S1024x4_S1568x4_1_0_0_1_n_n_wf
def dot_S1568x4_S4x1024_S1568x1024_1_0_0_1_n_n : DotDims S1568x4 S4x1024 S1568x1024 where
  lhsContracting := [1]
  rhsContracting := [0]
  lhsNonContracting := [0]
  rhsNonContracting := [1]
  lhsBatch := []
  rhsBatch := []
  wf := dot_S1568x4_S4x1024_S1568x1024_1_0_0_1_n_n_wf

abbrev spec0_0 : Pipeline.WinSpec sig grid0.rank :=
  Pipeline.WinSpec.ofSpec (Memref.whole main_call0_v4) S1568x1024.size reads0_0 false false 2 stage0_0 sem0_0 nbuf0_0 hstage0_0

abbrev spec0_1 : Pipeline.WinSpec sig grid0.rank :=
  Pipeline.WinSpec.ofSpec (Memref.whole main_call0_v2) S1024x1024.size reads0_1 false true 1 stage0_1 sem0_1 nbuf0_1 hstage0_1

abbrev spec0_2 : Pipeline.WinSpec sig grid0.rank :=
  Pipeline.WinSpec.ofSpec (Memref.whole main_arg4) S1x1024x4.size reads0_2 false false 2 stage0_2 sem0_2 nbuf0_2 hstage0_2

abbrev spec0_3 : Pipeline.WinSpec sig grid0.rank :=
  Pipeline.WinSpec.ofSpec (Memref.whole main_arg5) S1x4x1024.size reads0_3 false false 2 stage0_3 sem0_3 nbuf0_3 hstage0_3

abbrev spec0_4 : Pipeline.WinSpec sig grid0.rank :=
  Pipeline.WinSpec.ofSpec (Memref.whole main_call0_v3) S1x1024.size reads0_4 false true 1 stage0_4 sem0_4 nbuf0_4 hstage0_4

abbrev spec0_5 : Pipeline.WinSpec sig grid0.rank :=
  Pipeline.WinSpec.ofSpec (Memref.whole main_call0_v5) S1568x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 k0_off1_inb numel1_S1 pf | 3 => cc0_transform_3 k0_off1_inb numel1_S1 pf | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 pf | 3 => hreads0_3 pf | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_2 k0_off1_inb numel1_S1 pf i a + 1) * S1x1024x4.size a ≤ S11x1024x4.size a), EltTy.bits .f32 = 32 ∨ (Rect.block (s := S11x1024x4) S1x1024x4.size (cc0_transform_2 k0_off1_inb numel1_S1 pf i) h).WholeWords (EltTy.packing .f32)) ∧
  (∀ i : grid0.Coords, ∃ h : (∀ a, (cc0_transform_3 k0_off1_inb numel1_S1 pf i a + 1) * S1x4x1024.size a ≤ S11x4x1024.size a), EltTy.bits .f32 = 32 ∨ (Rect.block (s := S11x4x1024) S1x4x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => fun i a => (hok.1 i).elim fun h _ => h a | 3 => fun i a => (hok.2 i).elim fun h _ => h a | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => fun i => (hok.1 i).elim fun _ h => h | 3 => fun i => (hok.2 i).elim fun _ h => h | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S128x196x1024 : Shape := ⟨3, ![128, 196, 1024]⟩
abbrev S16 : Shape := ⟨1, ![16]⟩
abbrev S1024x1024 : Shape := ⟨2, ![1024, 1024]⟩
abbrev S1024 : Shape := ⟨1, ![1024]⟩
abbrev S11x1024x4 : Shape := ⟨3, ![11, 1024, 4]⟩
abbrev S11x4x1024 : Shape := ⟨3, ![11, 4, 1024]⟩
abbrev S1x1x1024 : Shape := ⟨3, ![1, 1, 1024]⟩
abbrev S16x8 : Shape := ⟨2, ![16, 8]⟩
abbrev S128 : Shape := ⟨1, ![128]⟩
abbrev S_ : Shape := ⟨0, ![]⟩
abbrev S128x1 : Shape := ⟨2, ![128, 1]⟩
abbrev S128x1024x4 : Shape := ⟨3, ![128, 1024, 4]⟩
abbrev S128x4x1024 : Shape := ⟨3, ![128, 4, 1024]⟩
abbrev S128x196x4 : Shape := ⟨3, ![128, 196, 4]⟩

abbrev nBuf : Space → Nat
  | .hbm => 41
  | .vmem => 0
  | .smem => 0
  | _ => 0

abbrev bufTy : (tb : Table) → Fin (tcTables nBuf tb) → BufTy
  | .hbm, ⟨0, _⟩ => ⟨S128x196x1024, .f32⟩
  | .hbm, ⟨1, _⟩ => ⟨S16, .i32⟩
  | .hbm, ⟨2, _⟩ => ⟨S1024x1024, .f32⟩
  | .hbm, ⟨3, _⟩ => ⟨S1024, .f32⟩
  | .hbm, ⟨4, _⟩ => ⟨S11x1024x4, .f32⟩
  | .hbm, ⟨5, _⟩ => ⟨S11x4x1024, .f32⟩
  | .hbm, ⟨6, _⟩ => ⟨S128x196x1024, .f32⟩
  | .hbm, ⟨7, _⟩ => ⟨S1x1x1024, .f32⟩
  | .hbm, ⟨8, _⟩ => ⟨S128x196x1024, .f32⟩
  | .hbm, ⟨9, _⟩ => ⟨S128x196x1024, .f32⟩
  | .hbm, ⟨10, _⟩ => ⟨S16x8, .i32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S128x1024x4, .f32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S128x4x1024, .f32⟩
  | .hbm, ⟨38, _⟩ => ⟨S128x196x4, .f32⟩
  | .hbm, ⟨39, _⟩ => ⟨S128x196x1024, .f32⟩
  | .hbm, ⟨40, _⟩ => ⟨S128x196x1024, .f32⟩
  | _, _ => ⟨S128x196x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S128x196x1024_0_1_2 : S1x1x1024.BroadcastsInDim S128x196x1024 (![0, 1, 2] : Fin 3 → Fin S128x196x1024.rank)
  bcast_S16_S16x8_0 : S16.BroadcastsInDim S16x8 (![0] : Fin 1 → Fin S16x8.rank)
  shapeCasts_S16x8_S128 : S16x8.ShapeCasts S128
  bcast_S_S128 : S_.BroadcastsInDim S128 (![] : Fin 0 → Fin S128.rank)
  bcast_S128_S128x1_0 : S128.BroadcastsInDim S128x1 (![0] : Fin 1 → Fin S128x1.rank)
  dot_S128x196x1024_S1024x1024_S128x196x1024_2_1_01_0_n_n_wf : DotDims.WF S128x196x1024 S1024x1024 S128x196x1024 [2] [1] [0, 1] [0] [] []
  gather_S11x1024x4_S128x1_S128x1024x4_12_0_n_n_0_1_110244_wf : GatherDims.WF S11x1024x4 S128x1 S128x1024x4 [1, 2] [0] [] [0] [] 1 ![1, 1024, 4]
  gather_S11x4x1024_S128x1_S128x4x1024_12_0_n_n_0_1_141024_wf : GatherDims.WF S11x4x1024 S128x1 S128x4x1024 [1, 2] [0] [] [0] [] 1 ![1, 4, 1024]
  dot_S128x196x1024_S128x1024x4_S128x196x4_2_1_1_2_0_0_wf : DotDims.WF S128x196x1024 S128x1024x4 S128x196x4 [2] [1] [1] [2] [0] [0]
  dot_S128x196x4_S128x4x1024_S128x196x1024_2_1_1_2_0_0_wf : DotDims.WF S128x196x4 S128x4x1024 S128x196x1024 [2] [1] [1] [2] [0] [0]

variable [Facts₀]

def dot_S128x196x1024_S1024x1024_S128x196x1024_2_1_01_0_n_n : DotDims S128x196x1024 S1024x1024 S128x196x1024 where
  lhsContracting := [2]
  rhsContracting := [1]
  lhsNonContracting := [0, 1]
  rhsNonContracting := [0]
  lhsBatch := []
  rhsBatch := []
  wf := dot_S128x196x1024_S1024x1024_S128x196x1024_2_1_01_0_n_n_wf
def gather_S11x1024x4_S128x1_S128x1024x4_12_0_n_n_0_1_110244 : GatherDims S11x1024x4 S128x1 S128x1024x4 where
  offsetDims := [1, 2]
  collapsedSliceDims := [0]
  operandBatchingDims := []
  startIndicesBatchingDims := []
  startIndexMap := [0]
  indexVectorDim := 1
  sliceSizes := ![1, 1024, 4]
  wf := gather_S11x1024x4_S128x1_S128x1024x4_12_0_n_n_0_1_110244_wf
def gather_S11x4x1024_S128x1_S128x4x1024_12_0_n_n_0_1_141024 : GatherDims S11x4x1024 S128x1 S128x4x1024 where
  offsetDims := [1, 2]
  collapsedSliceDims := [0]
  operandBatchingDims := []
  startIndicesBatchingDims := []
  startIndexMap := [0]
  indexVectorDim := 1
  sliceSizes := ![1, 4, 1024]
  wf := gather_S11x4x1024_S128x1_S128x4x1024_12_0_n_n_0_1_141024_wf
def dot_S128x196x1024_S128x1024x4_S128x196x4_2_1_1_2_0_0 : DotDims S128x196x1024 S128x1024x4 S128x196x4 where
  lhsContracting := [2]
  rhsContracting := [1]
  lhsNonContracting := [1]
  rhsNonContracting := [2]
  lhsBatch := [0]
  rhsBatch := [0]
  wf := dot_S128x196x1024_S128x1024x4_S128x196x4_2_1_1_2_0_0_wf
def dot_S128x196x4_S128x4x1024_S128x196x1024_2_1_1_2_0_0 : DotDims S128x196x4 S128x4x1024 S128x196x1024 where
  lhsContracting := [2]
  rhsContracting := [1]
  lhsNonContracting := [1]
  rhsNonContracting := [2]
  lhsBatch := [0]
  rhsBatch := [0]
  wf := dot_S128x196x4_S128x4x1024_S128x196x1024_2_1_1_2_0_0_wf

class Facts : Prop extends Facts₀ where

variable [Facts]
-- ==== Proof.Spec.lean ====
/-
  The function both programs compute, over the extended reals.

  A batch of 128 frames of 196 tokens, each a row of 1024 features, goes through a linear layer with weight `W`
  (stored output-major: `W (o, i)`) and bias `b`, plus a low-rank correction that depends on the frame's view:
  sixteen view words are given, one per group of eight consecutive frames; a word is clamped into `0 … 10` and
  names one of eleven pairs `A v : 1024 × 4`, `B v : 4 × 1024`. At frame `f`, token `t`, output feature `o`:

      out (f, t, o) = ∑ᵢ x (f, t, i) · W (o, i)  +  ∑ᵣ (∑ᵢ x (f, t, i) · A (v f) (i, r)) · B (v f) (r, o)  +  b o

  with `v f` the clamped view word of group `f / 8`. The two programs group the three summands differently
  (`(base + low-rank) + bias` against `(base + bias) + low-rank`); addition on the extended reals is commutative
  and associative, so the two groupings are one value (`regroup`), with no finiteness needed.
-/
import Idealize.ShloMosaic.PureOps.Ideal
import Idealize.ShloMosaic.Lib.ValueIdx

noncomputable section

namespace Cert.Spec

open Idealize.ShloMosaic Idealize.ShloMosaic.ValueIdx

/-! ## The clamp of a view word into `0 … 10` -/

/-- `min 10 (max 0 w)` on signed 32-bit words. -/
def clampw (w : BitVec 32) : BitVec 32 := IntOp.minsi 10#32 (IntOp.maxsi 0#32 w)

/-- Read signed, the clamped word lies in `0 … 10`. -/
theorem clampw_toInt (w : BitVec 32) : 0 ≤ (clampw w).toInt ∧ (clampw w).toInt ≤ 10 := by
  have h0 : (0#32 : BitVec 32).toInt = 0 := by decide
  have h10 : (10#32 : BitVec 32).toInt = 10 := by decide
  unfold clampw IntOp.minsi IntOp.maxsi
  simp only [BitVec.slt, h0, h10, decide_eq_true_eq]
  split_ifs <;> constructor <;> simp_all <;> omega

/-- Read unsigned, it is at most 10: a non-negative signed value is the unsigned one. -/
theorem clampw_toNat (w : BitVec 32) : (clampw w).toNat ≤ 10 := by
  have h := clampw_toInt w
  have h32 := (clampw w).isLt
  rw [BitVec.toInt_eq_toNat_cond] at h
  split at h <;> omega

/-- Its signed value, as a natural number, is its unsigned value. -/
theorem clampw_toInt_toNat (w : BitVec 32) : (clampw w).toInt.toNat = (clampw w).toNat := by
  have h := clampw_toInt w
  have h32 := (clampw w).isLt
  rw [BitVec.toInt_eq_toNat_cond] at h ⊢
  split at h <;> omega

/-- It is not below zero as a signed word. -/
theorem clampw_not_neg (w : BitVec 32) : IntOp.cmpi .slt (clampw w) 0#32 = 0#1 := by
  have h := (clampw_toInt w).1
  have h0 : (0#32 : BitVec 32).toInt = 0 := by decide
  unfold IntOp.cmpi
  simp only [BitVec.slt, h0]
  rw [decide_eq_false (by omega)]
  rfl

/-! ## Views and the result -/

/-- The group of eight consecutive frames that frame `f` belongs to. -/
def grp (f : Fin 128) : Fin 16 := ⟨f.val / 8, by have := f.isLt; omega⟩

/-- The view of a group: its word clamped into `0 … 10`. -/
def view (idx : (⟨1, ![16]⟩ : Shape).Idx → BitVec 32) (g : Fin 16) : Fin 11 :=
  ⟨(clampw (idx (ix1 g))).toNat, Nat.lt_succ_of_le (clampw_toNat _)⟩

/-- The base linear term `∑ᵢ x (f, t, i) · W (o, i)`. -/
def base (x : (⟨3, ![128, 196, 1024]⟩ : Shape).Idx → EReal) (W : (⟨2, ![1024, 1024]⟩ : Shape).Idx → EReal)
    (f : Fin 128) (t : Fin 196) (o : Fin 1024) : EReal :=
  ∑ i : Fin 1024, x (ix3 f t i) * W (ix2 o i)

/-- The rank-4 projection `∑ᵢ x (f, t, i) · A v (i, r)`. -/
def proj (x : (⟨3, ![128, 196, 1024]⟩ : Shape).Idx → EReal) (A : (⟨3, ![11, 1024, 4]⟩ : Shape).Idx → EReal)
    (v : Fin 11) (f : Fin 128) (t : Fin 196) (r : Fin 4) : EReal :=
  ∑ i : Fin 1024, x (ix3 f t i) * A (ix3 v i r)

/-- The low-rank term `∑ᵣ proj (f, t, r) · B v (r, o)`. -/
def lowrank (x : (⟨3, ![128, 196, 1024]⟩ : Shape).Idx → EReal) (A : (⟨3, ![11, 1024, 4]⟩ : Shape).Idx → EReal)
    (B : (⟨3, ![11, 4, 1024]⟩ : Shape).Idx → EReal) (v : Fin 11) (f : Fin 128) (t : Fin 196) (o : Fin 1024) : EReal :=
  ∑ r : Fin 4, proj x A v f t r * B (ix3 v r o)

/-- The result at frame `f`, token `t`, feature `o`: `(base + low-rank) + bias`. -/
def out (x : (⟨3, ![128, 196, 1024]⟩ : Shape).Idx → EReal) (idx : (⟨1, ![16]⟩ : Shape).Idx → BitVec 32)
    (W : (⟨2, ![1024, 1024]⟩ : Shape).Idx → EReal) (b : (⟨1, ![1024]⟩ : Shape).Idx → EReal)
    (A : (⟨3, ![11, 1024, 4]⟩ : Shape).Idx → EReal) (B : (⟨3, ![11, 4, 1024]⟩ : Shape).Idx → EReal)
    (f : Fin 128) (t : Fin 196) (o : Fin 1024) : EReal :=
  (base x W f t o + lowrank x A B (view idx (grp f)) f t o) + b (ix1 o)

/-- The result as an array. -/
def outArr (x : (⟨3, ![128, 196, 1024]⟩ : Shape).Idx → EReal) (idx : (⟨1, ![16]⟩ : Shape).Idx → BitVec 32)
    (W : (⟨2, ![1024, 1024]⟩ : Shape).Idx → EReal) (b : (⟨1, ![1024]⟩ : Shape).Idx → EReal)
    (A : (⟨3, ![11, 1024, 4]⟩ : Shape).Idx → EReal) (B : (⟨3, ![11, 4, 1024]⟩ : Shape).Idx → EReal) :
    (⟨3, ![128, 196, 1024]⟩ : Shape).Idx → EReal :=
  fun j => out x idx W b A B (j 0) (j 1) (j 2)

/-- The other grouping of the three summands is the same extended real. -/
theorem regroup (p q r : EReal) : (p + r) + q = (p + q) + r := add_right_comm p r q

end Cert.Spec

end
-- ==== Proof.TableKernel.lean ====
/-
  The view table the index maps read, and why every block it names lies inside its array.

  Before the launch the host clamps the sixteen view words into `0 … 10` (a maximum with 0, then a minimum
  with 10) and places the result where the index maps of the two low-rank operands read it: at grid point `g`
  they ask for block `(table g, 0, 0)` of the `11 × 1024 × 4` and `11 × 4 × 1024` arrays, in blocks of one
  whole view. A clamped word is at most 10 (`Spec.clampw_toNat`), so the block index is below 11 on the view
  axis and 0 on the other two: every requested block is inside its array, whatever the view words are.
  Nothing here depends on the float values: the statements hold at every instance.
-/
import proofs.«400782_j43319040147751_3_alg».proof.Proof.Gen.Kernel.Frame
import proofs.«400782_j43319040147751_3_alg».proof.Proof.Spec
import Idealize.ShloMosaic.Lib.StableHlo.Run

set_option maxRecDepth 16384

noncomputable section

namespace Cert.Kernel.Tab

open Cert.Kernel Cert.Kernel.Gen Cert.Spec
open Idealize.ShloMosaic Idealize.ShloMosaic.TcCoe Idealize.SL.Sem

variable {F : FTy → Type} [FloatOps F]
variable (m : (ℓ : Loc nD τ sig) → Buf (Elt F) ℓ)

/-- The table at entry `q` is the clamp of view word `q`. -/
theorem tbl_apply (q : S16.Idx) : tbl m 0 q = clampw (m (((0 : Dev nD) : Thread nD τ).loc main_arg1) q) := by
  unfold tbl
  show V m 0 main_call0_v0 q = _
  dsimp only [V, V0]
  simp only [hostOps0, List.flatten_cons, List.flatten_nil, List.append_nil, List.cons_append, List.nil_append]
  after_results
  rfl

/-- The table entry an index map reads at grid point `i`: entry `i`. -/
def tix (i : grid0.Coords) : S16.Idx :=
  (Rect.unit (s := S16) ![(Scalar.indexCast (BitVec.ofNat 32 (i 0).val)).toNat] S1.size (k0_off1_inb i)).emb
    (Shape.Idx.first (numel1_S1.symm ▸ Nat.one_pos))

/-- Its one coordinate is the grid coordinate. -/
theorem tix_val (i : grid0.Coords) : (tix i 0).val = (i 0).val := by
  have h : (i 0).val < 16 := (i 0).isLt
  show (Scalar.indexCast (BitVec.ofNat 32 (i 0).val)).toNat
    + 1 * (Shape.Idx.first (numel1_S1.symm ▸ Nat.one_pos) (0 : Fin 1)).val = _
  have e : (Shape.Idx.first (numel1_S1.symm ▸ Nat.one_pos : 0 < S1.numel) (0 : Fin 1)).val = 0 := by
    have := (Shape.Idx.first (numel1_S1.symm ▸ Nat.one_pos : 0 < S1.numel) (0 : Fin 1)).isLt
    have e1 : S1.size (0 : Fin 1) = 1 := by decide
    omega
  rw [e]
  show (BitVec.ofNat 32 (i 0).val).toNat + 1 * 0 = _
  rw [BitVec.toNat_ofNat]; omega

/-- The two table-reading index maps, at any contents `pf` of the table: block `(pf entry, 0, 0)`. -/
theorem transform2_eq (pf : pre0.Contents (Elt F)) (i : grid0.Coords) :
    cc0_transform_2 k0_off1_inb numel1_S1 pf i = ![(pf 0 (tix i)).toNat, 0, 0] := rfl
theorem transform3_eq (pf : pre0.Contents (Elt F)) (i : grid0.Coords) :
    cc0_transform_3 k0_off1_inb numel1_S1 pf i = ![(pf 0 (tix i)).toNat, 0, 0] := rfl

/-- A table whose entries are all at most 10 names only blocks inside the two eleven-view arrays. -/
theorem ok_of_le (pf : pre0.Contents (Elt F)) (h : ∀ q, (pf 0 q).toNat ≤ 10) : ok0 (F := F) pf := by
  refine ⟨fun i => ⟨fun a => ?_, .inl rfl⟩, fun i => ⟨fun a => ?_, .inl rfl⟩⟩
  · rw [transform2_eq]
    have := h (tix i)
    fin_cases a
    · show ((pf 0 (tix i)).toNat + 1) * 1 ≤ 11; omega
    · show (0 + 1) * 1024 ≤ 1024; omega
    · show (0 + 1) * 4 ≤ 4; omega
  · rw [transform3_eq]
    have := h (tix i)
    fin_cases a
    · show ((pf 0 (tix i)).toNat + 1) * 1 ≤ 11; omega
    · show (0 + 1) * 4 ≤ 4; omega
    · show (0 + 1) * 1024 ≤ 1024; omega

/-- The table the host computed is such a table: the launch's side condition holds of every memory. -/
theorem ok : Ok m := ok_of_le (tbl m) fun q =>
  le_of_eq_of_le (congrArg BitVec.toNat (tbl_apply m q)) (clampw_toNat _)

end Cert.Kernel.Tab

end
-- ==== Proof.TableIdeal.lean ====
/-
  The view table the index maps read, and why every block it names lies inside its array.

  Before the launch the host clamps the sixteen view words into `0 … 10` (a maximum with 0, then a minimum
  with 10) and places the result where the index maps of the two low-rank operands read it: at grid point `g`
  they ask for block `(table g, 0, 0)` of the `11 × 1024 × 4` and `11 × 4 × 1024` arrays, in blocks of one
  whole view. A clamped word is at most 10 (`Spec.clampw_toNat`), so the block index is below 11 on the view
  axis and 0 on the other two: every requested block is inside its array, whatever the view words are.
  Nothing here depends on the float values: the statements hold at every instance.
-/
import proofs.«400782_j43319040147751_3_alg».proof.Proof.Gen.KernelIdeal.Frame
import proofs.«400782_j43319040147751_3_alg».proof.Proof.Spec
import Idealize.ShloMosaic.Lib.StableHlo.Run

set_option maxRecDepth 16384

noncomputable section

namespace Cert.KernelIdeal.Tab

open Cert.KernelIdeal Cert.KernelIdeal.Gen Cert.Spec
open Idealize.ShloMosaic Idealize.ShloMosaic.TcCoe Idealize.SL.Sem

variable {F : FTy → Type} [FloatOps F]
variable (m : (ℓ : Loc nD τ sig) → Buf (Elt F) ℓ)

/-- The table at entry `q` is the clamp of view word `q`. -/
theorem tbl_apply (q : S16.Idx) : tbl m 0 q = clampw (m (((0 : Dev nD) : Thread nD τ).loc main_arg1) q) := by
  unfold tbl
  show V m 0 main_call0_v0 q = _
  dsimp only [V, V0]
  simp only [hostOps0, List.flatten_cons, List.flatten_nil, List.append_nil, List.cons_append, List.nil_append]
  after_results
  rfl

/-- The table entry an index map reads at grid point `i`: entry `i`. -/
def tix (i : grid0.Coords) : S16.Idx :=
  (Rect.unit (s := S16) ![(Scalar.indexCast (BitVec.ofNat 32 (i 0).val)).toNat] S1.size (k0_off1_inb i)).emb
    (Shape.Idx.first (numel1_S1.symm ▸ Nat.one_pos))

/-- Its one coordinate is the grid coordinate. -/
theorem tix_val (i : grid0.Coords) : (tix i 0).val = (i 0).val := by
  have h : (i 0).val < 16 := (i 0).isLt
  show (Scalar.indexCast (BitVec.ofNat 32 (i 0).val)).toNat
    + 1 * (Shape.Idx.first (numel1_S1.symm ▸ Nat.one_pos) (0 : Fin 1)).val = _
  have e : (Shape.Idx.first (numel1_S1.symm ▸ Nat.one_pos : 0 < S1.numel) (0 : Fin 1)).val = 0 := by
    have := (Shape.Idx.first (numel1_S1.symm ▸ Nat.one_pos : 0 < S1.numel) (0 : Fin 1)).isLt
    have e1 : S1.size (0 : Fin 1) = 1 := by decide
    omega
  rw [e]
  show (BitVec.ofNat 32 (i 0).val).toNat + 1 * 0 = _
  rw [BitVec.toNat_ofNat]; omega

/-- The two table-reading index maps, at any contents `pf` of the table: block `(pf entry, 0, 0)`. -/
theorem transform2_eq (pf : pre0.Contents (Elt F)) (i : grid0.Coords) :
    cc0_transform_2 k0_off1_inb numel1_S1 pf i = ![(pf 0 (tix i)).toNat, 0, 0] := rfl
theorem transform3_eq (pf : pre0.Contents (Elt F)) (i : grid0.Coords) :
    cc0_transform_3 k0_off1_inb numel1_S1 pf i = ![(pf 0 (tix i)).toNat, 0, 0] := rfl

/-- A table whose entries are all at most 10 names only blocks inside the two eleven-view arrays. -/
theorem ok_of_le (pf : pre0.Contents (Elt F)) (h : ∀ q, (pf 0 q).toNat ≤ 10) : ok0 (F := F) pf := by
  refine ⟨fun i => ⟨fun a => ?_, .inl rfl⟩, fun i => ⟨fun a => ?_, .inl rfl⟩⟩
  · rw [transform2_eq]
    have := h (tix i)
    fin_cases a
    · show ((pf 0 (tix i)).toNat + 1) * 1 ≤ 11; omega
    · show (0 + 1) * 1024 ≤ 1024; omega
    · show (0 + 1) * 4 ≤ 4; omega
  · rw [transform3_eq]
    have := h (tix i)
    fin_cases a
    · show ((pf 0 (tix i)).toNat + 1) * 1 ≤ 11; omega
    · show (0 + 1) * 4 ≤ 4; omega
    · show (0 + 1) * 1024 ≤ 1024; omega

/-- The table the host computed is such a table: the launch's side condition holds of every memory. -/
theorem ok : Ok m := ok_of_le (tbl m) fun q =>
  le_of_eq_of_le (congrArg BitVec.toNat (tbl_apply m q)) (clampw_toNat _)

end Cert.KernelIdeal.Tab

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.Body.lean ====
/-
  What one grid point computes.

  At a grid point the body loads a block of 1568 rows of `x` (one group of eight frames), the transposed weight,
  the group's `A` (`1 × 1024 × 4`) and `B` (`1 × 4 × 1024`) and the bias row, and stores ONE value over the whole
  output block: `(x · Wᵗ + (x · A) · B) + bias`. So the output block after the body is that value of the loaded
  blocks (`out_A`), and at row `p`, column `q`, over the extended reals, it is

      (∑ₖ x (p, k) · w (k, q) + ∑ᵣ (∑ₖ x (p, k) · a (0, k, r)) · b (0, r, q)) + bias (0, q)

  (`pay_apply`): each of the three matrix products into a zero accumulator is the plain sum of products along
  the contracted axis, the narrowing of `x` to bf16 is the identity on extended reals, and the bias row is
  broadcast down the rows.
-/
import proofs.«400782_j43319040147751_3_alg».proof.Proof.Gen.KernelIdeal.Frame
import proofs.«400782_j43319040147751_3_alg».proof.Proof.LibPlainMatmul
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The output block after the body: its one store covers the block, and its value is the body's arithmetic of the
    five loaded blocks, each load reading a whole buffer. -/
theorem out_A (c : Dev nD) (i : grid0.Coords) (arg2 : Memref sig .tc .vmem S1568x1024 .f32) (harg2 : arg2.IsWhole) (arg3 : Memref sig .tc .vmem S1024x1024 .bf16) (harg3 : arg3.IsWhole) (arg4 : Memref sig .tc .vmem S1x1024x4 .f32) (harg4 : arg4.IsWhole) (arg5 : Memref sig .tc .vmem S1x4x1024 .f32) (harg5 : arg5.IsWhole) (arg6 : Memref sig .tc .vmem S1x1024 .f32) (harg6 : arg6.IsWhole) (arg7 : Memref sig .tc .vmem S1568x1024 .f32) (harg7 : arg7.IsWhole)
    (x0 : Vec F S1568x1024 .f32) (x1 : Vec F S1024x1024 .bf16) (x2 : Vec F S1x1024x4 .f32) (x3 : Vec F S1x4x1024 .f32) (x4 : Vec F S1x1024 .f32) (xt0 : TbBuf0 (F := F) c tbM0_0) :
    out0_A_5 c i arg2 harg2 arg3 harg3 arg4 harg4 arg5 harg5 arg6 harg6 arg7 harg7 x0 x1 x2 x3 x4 xt0 = k0_pay1 x0 x1 x2 x3 x4 := by
  unfold out0_A_5
  rw [View.read_writes_eq_canon _ _ _ (cover0_A_5 c i arg2 harg2 arg3 harg3 arg4 harg4 arg5 harg5 arg6 harg6 arg7 harg7 x0 x1 x2 x3 x4 xt0)]
  unfold kernelRun0_A
  dsimp only
  sl_unfold_words
  rw [View.canon_unit_zero hz2]
  simp only [View.readAt_eq_ld, harg2.read_unread, harg3.read_unread, harg4.read_unread, harg5.read_unread, harg6.read_unread,
    View.ld_unit_zero (S := S1568x1024) hz2, View.ld_unit_zero (S := S1024x1024) hz2, View.ld_unit_zero (S := S1x1024) hz2,
    View.ld_unit_zero (S := S1x1024x4) hz3, View.ld_unit_zero (S := S1x4x1024) hz3]

/-- The three products' dimension numbers are the plain `M × K` by `K × N` ones. -/
theorem dot_main : dot_S1568x1024_S1024x1024_S1568x1024_1_0_0_1_n_n = DotDims.plain 1568 1024 1024 := rfl
theorem dot_proj : dot_S1568x1024_S1024x4_S1568x4_1_0_0_1_n_n = DotDims.plain 1568 1024 4 := rfl
theorem dot_back : dot_S1568x4_S4x1024_S1568x1024_1_0_0_1_n_n = DotDims.plain 1568 4 1024 := rfl

/-- The body's value at row `p`, column `q`, over the extended reals. -/
theorem pay_apply (x0 : Vec Ideal S1568x1024 .f32) (x1 : Vec Ideal S1024x1024 .bf16) (x2 : Vec Ideal S1x1024x4 .f32)
    (x3 : Vec Ideal S1x4x1024 .f32) (x4 : Vec Ideal S1x1024 .f32) (p : Fin 1568) (q : Fin 1024) :
    k0_pay1 (F := Ideal) x0 x1 x2 x3 x4 (ix2 p q)
      = ((∑ k : Fin 1024, x0 (ix2 p k) * x1 (ix2 k q))
          + ∑ r : Fin 4, (∑ k : Fin 1024, x0 (ix2 p k) * x2 (ix3 (0 : Fin 1) k r)) * x3 (ix3 (0 : Fin 1) r q))
        + x4 (ix2 (0 : Fin 1) q) := by
  unfold k0_pay1
  simp only [shapeCast_self]
  rw [addf_apply, addf_apply, dot_main, dot_proj, dot_back]
  refine congrArg₂ (· + ·) (congrArg₂ (· + ·) ?_ ?_) ?_
  · exact Cert.Lib.matmul_plain_zero_apply 1568 1024 1024 none (truncf .bf16 x0 bitsLt_bf16_f32) x1 (ix2 p q)
  · refine (Cert.Lib.matmul_plain_zero_apply 1568 4 1024 (some .fp32) _ _ (ix2 p q)).trans ?_
    refine Finset.sum_congr rfl fun r _ => ?_
    refine congrArg₂ (· * ·) ?_ ?_
    · refine (Cert.Lib.matmul_plain_zero_apply 1568 1024 4 (some .fp32) x0 _ (ix2 p r)).trans ?_
      refine Finset.sum_congr rfl fun k _ => ?_
      exact congrArg (x0 (ix2 p k) * ·) (shapeCast_1ab_ab_apply x2 shapeCasts_S1x1024x4_S1024x4 k r)
    · exact shapeCast_1ab_ab_apply x3 shapeCasts_S1x4x1024_S4x1024 r q
  · exact broadcastTo_1b_ab_apply x4 broadcasts_S1x1024_S1568x1024 p q

end Cert.KernelIdeal.Body

end
-- ==== Proof.Blocks.lean ====
/-
  Where each window's block sits in its array, at grid point `t` (one of 16: one per group of eight frames).

  The row windows (the flattened input `25088 × 1024` and the output of the same shape) take the `t`-th block of
  1568 rows: block entry `(p, k)` is array entry `(1568 t + p, k)`. The weight, and the bias row, are one block:
  the whole array at every point. The two low-rank operands take the whole view named by the table's entry `t`:
  block entry `(0, k, r)` is array entry `(table t, k, r)`. All of this is stated for ANY admissible contents of
  the table, so that nothing here computes with a particular table.
-/
import proofs.«400782_j43319040147751_3_alg».proof.Proof.TableIdeal
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Tab
open Idealize.ShloMosaic Idealize.ShloMosaic.TcCoe Idealize.SL.Sem Idealize.ShloMosaic.ValueIdx

variable {F : FTy → Type} [FloatOps F]
variable (a : (pcfg0 (F := F)).Adm)

/-- The grid's one coordinate at point `t` is `t`. -/
theorem coords_val (t : Fin (cfg0 a).N) : (grid0.coords t 0).val = t.val := by
  have := t.isLt
  have h : (cfg0 a).N = 16 := N_0
  show t.val / 1 % 16 = t.val
  omega

/-- The table entry read at point `t` is entry `t`. -/
theorem tix_coords (t : Fin (cfg0 a).N) : (tix (grid0.coords t) 0).val = t.val :=
  (tix_val _).trans (coords_val a t)

/-! ## The block indices -/

theorem index0 (t : Fin (cfg0 a).N) : ((cfg0 a).win 0).index t = ![t.val, 0] := by
  show cc0_transform_0 (grid0.coords t) = _
  unfold cc0_transform_0
  dsimp only
  have h := coords_val a t
  have := t.isLt
  have hN : (cfg0 a).N = 16 := N_0
  rw [BitVec.toNat_ofNat, h]
  congr 1
  · omega

theorem index5 (t : Fin (cfg0 a).N) : ((cfg0 a).win 5).index t = ![t.val, 0] := by
  show cc0_transform_5 (grid0.coords t) = _
  unfold cc0_transform_5
  dsimp only
  have h := coords_val a t
  have := t.isLt
  have hN : (cfg0 a).N = 16 := N_0
  rw [BitVec.toNat_ofNat, h]
  congr 1
  · omega

theorem index1 (t : Fin (cfg0 a).N) : ((cfg0 a).win 1).index t = ![0, 0] := rfl
theorem index4 (t : Fin (cfg0 a).N) : ((cfg0 a).win 4).index t = ![0, 0] := rfl
theorem index2 (t : Fin (cfg0 a).N) : ((cfg0 a).win 2).index t = ![(a.1 0 (tix (grid0.coords t))).toNat, 0, 0] := rfl
theorem index3 (t : Fin (cfg0 a).N) : ((cfg0 a).win 3).index t = ![(a.1 0 (tix (grid0.coords t))).toNat, 0, 0] := rfl

/-! ## Block reads -/

/-- The rows of `x` at point `t`. -/
theorem read0 (t : Fin (cfg0 a).N) (f : ((((cfg0 a).win 0).blk t).view.ty).Contents (Elt F)) (p : Fin 1568) (k : Fin 1024) :
    (((cfg0 a).win 0).blk t).view.read (Elt F) f (ix2 p k)
      = f (ix2 (⟨t.val * 1568 + p.val, by have := t.isLt; have h : (cfg0 a).N = 16 := N_0; omega⟩ : Fin 25088) k) := by
  show f _ = f _
  refine congrArg f ?_
  funext d
  apply Fin.ext
  have hi := index0 a t
  match d with
  | ⟨0, _⟩ => show ((cfg0 a).win 0).index t (0 : Fin 2) * 1568 + 1 * p.val = t.val * 1568 + p.val; rw [hi]; show t.val * 1568 + 1 * p.val = _; omega
  | ⟨1, _⟩ => show ((cfg0 a).win 0).index t (1 : Fin 2) * 1024 + 1 * k.val = k.val; rw [hi]; show 0 * 1024 + 1 * k.val = _; omega

/-- The output rows at point `t`. -/
theorem read5 (t : Fin (cfg0 a).N) (f : ((((cfg0 a).win 5).blk t).view.ty).Contents (Elt F)) (p : Fin 1568) (k : Fin 1024) :
    (((cfg0 a).win 5).blk t).view.read (Elt F) f (ix2 p k)
      = f (ix2 (⟨t.val * 1568 + p.val, by have := t.isLt; have h : (cfg0 a).N = 16 := N_0; omega⟩ : Fin 25088) k) := by
  show f _ = f _
  refine congrArg f ?_
  funext d
  apply Fin.ext
  have hi := index5 a t
  match d with
  | ⟨0, _⟩ => show ((cfg0 a).win 5).index t (0 : Fin 2) * 1568 + 1 * p.val = t.val * 1568 + p.val; rw [hi]; show t.val * 1568 + 1 * p.val = _; omega
  | ⟨1, _⟩ => show ((cfg0 a).win 5).index t (1 : Fin 2) * 1024 + 1 * k.val = k.val; rw [hi]; show 0 * 1024 + 1 * k.val = _; omega

/-- The weight: the whole array. -/
theorem read1 (t : Fin (cfg0 a).N) (f : ((((cfg0 a).win 1).blk t).view.ty).Contents (Elt F)) (k : Fin 1024) (q : Fin 1024) :
    (((cfg0 a).win 1).blk t).view.read (Elt F) f (ix2 k q) = f (ix2 k q) := by
  show f _ = f _
  refine congrArg f ?_
  funext d
  apply Fin.ext
  match d with
  | ⟨0, _⟩ => show 0 * 1024 + 1 * k.val = k.val; omega
  | ⟨1, _⟩ => show 0 * 1024 + 1 * q.val = q.val; omega

/-- The bias row: the whole array. -/
theorem read4 (t : Fin (cfg0 a).N) (f : ((((cfg0 a).win 4).blk t).view.ty).Contents (Elt F)) (u : Fin 1) (q : Fin 1024) :
    (((cfg0 a).win 4).blk t).view.read (Elt F) f (ix2 u q) = f (ix2 u q) := by
  show f _ = f _
  refine congrArg f ?_
  funext d
  apply Fin.ext
  match d with
  | ⟨0, _⟩ => show 0 * 1 + 1 * u.val = u.val; omega
  | ⟨1, _⟩ => show 0 * 1024 + 1 * q.val = q.val; omega

/-- The group's `A`: view `v`, the table's entry. -/
theorem read2 (t : Fin (cfg0 a).N) (f : ((((cfg0 a).win 2).blk t).view.ty).Contents (Elt F)) (v : Fin 11)
    (hv : (a.1 0 (tix (grid0.coords t))).toNat = v.val) (u : Fin 1) (k : Fin 1024) (r : Fin 4) :
    (((cfg0 a).win 2).blk t).view.read (Elt F) f (ix3 u k r) = f (ix3 v k r) := by
  show f _ = f _
  refine congrArg f ?_
  funext d
  apply Fin.ext
  have hu : u.val = 0 := by omega
  match d with
  | ⟨0, _⟩ => show (a.1 0 (tix (grid0.coords t))).toNat * 1 + 1 * u.val = v.val; rw [hv, hu]; omega
  | ⟨1, _⟩ => show 0 * 1024 + 1 * k.val = k.val; omega
  | ⟨2, _⟩ => show 0 * 4 + 1 * r.val = r.val; omega

/-- The group's `B`: view `v`, the table's entry. -/
theorem read3 (t : Fin (cfg0 a).N) (f : ((((cfg0 a).win 3).blk t).view.ty).Contents (Elt F)) (v : Fin 11)
    (hv : (a.1 0 (tix (grid0.coords t))).toNat = v.val) (u : Fin 1) (r : Fin 4) (q : Fin 1024) :
    (((cfg0 a).win 3).blk t).view.read (Elt F) f (ix3 u r q) = f (ix3 v r q) := by
  show f _ = f _
  refine congrArg f ?_
  funext d
  apply Fin.ext
  have hu : u.val = 0 := by omega
  match d with
  | ⟨0, _⟩ => show (a.1 0 (tix (grid0.coords t))).toNat * 1 + 1 * u.val = v.val; rw [hv, hu]; omega
  | ⟨1, _⟩ => show 0 * 4 + 1 * r.val = r.val; omega
  | ⟨2, _⟩ => show 0 * 1024 + 1 * q.val = q.val; omega

/-! ## The output window's blocks tile the array -/

set_option backward.isDefEq.respectTransparency.types false in
/-- An entry is in point `t`'s output block iff its row is among the block's 1568 rows. -/
theorem mem_blk5 (t : Fin (cfg0 a).N) (i : S25088x1024.Idx) :
    i ∈ (((cfg0 a).win 5).blk t).view.set ↔ ∀ d : Fin 2, ((cfg0 a).win 5).index t d * S1568x1024.size d ≤ (i d).val ∧ (i d).val < ((cfg0 a).win 5).index t d * S1568x1024.size d + S1568x1024.size d := by
  show i ∈ ((View.whole main_call0_v5).slice (((cfg0 a).win 5).rect t)).set ↔ _
  rw [View.set_slice_whole]
  exact Rect.mem_set_unit

/-- Every entry of the output array is in the block of the point its row belongs to. -/
theorem cover5 (i : S25088x1024.Idx) : ∃ t : Fin (cfg0 a).N, ((cfg0 a).win 5).flush t = true ∧ i ∈ (((cfg0 a).win 5).blk t).view.set := by
  have h0 : (i 0).val < 25088 := (i 0).isLt
  have h1 : (i 1).val < 1024 := (i 1).isLt
  have hN : (cfg0 a).N = 16 := N_0
  refine ⟨⟨(i 0).val / 1568, by omega⟩, flush0_5 a _, ?_⟩
  rw [mem_blk5, index5]
  intro d
  match d with
  | ⟨0, _⟩ => show (i 0).val / 1568 * 1568 ≤ (i 0).val ∧ (i 0).val < (i 0).val / 1568 * 1568 + 1568; omega
  | ⟨1, _⟩ => show 0 * 1024 ≤ (i 1).val ∧ (i 1).val < 0 * 1024 + 1024; omega

end Cert.KernelIdeal.Blocks

end
-- ==== Proof.KernelValue.lean ====
/-
  The array the kernel leaves, over the extended reals.

  The host flattens `x` to `25088 × 1024` rows (row `196 f + t` is frame `f`, token `t`), transposes the weight
  (so that entry `(i, o)` of what the kernel multiplies by is `W (o, i)`) and makes the bias a row. Grid point
  `g` (one per group of eight frames, 1568 rows) computes, for its rows, the value of Body.lean of its blocks;
  read through Blocks.lean these blocks are rows `1568 g …` of the flattened `x`, the whole transposed weight,
  the `A` and `B` of the view that the clamped word of group `g` names, and the bias row. Row `1568 g + p` is
  frame `(1568 g + p) / 196`, whose group is `g`: so every entry of the `25088 × 1024` result is `Spec.out` at its
  frame, token and feature (`flushed_eq`), the sixteen blocks cover the array (`final`), and the host's last
  reshape to `128 × 196 × 1024` reads it back at `(f, t, o)` (`result`).
-/
import proofs.«400782_j43319040147751_3_alg».proof.Proof.Body
import proofs.«400782_j43319040147751_3_alg».proof.Proof.Blocks
import Idealize.ShloMosaic.Lib.StableHlo.Run

set_option maxRecDepth 16384

noncomputable section

namespace Cert.KernelIdeal.Value

open Cert.KernelIdeal Cert.KernelIdeal.Gen Cert.KernelIdeal.Tab Cert.KernelIdeal.Blocks Cert.KernelIdeal.Body Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments, as arrays -/

abbrev xA (c : Dev nD) : S128x196x1024.Idx → EReal := m ((c : Thread nD τ).loc main_arg0)
abbrev idxA (c : Dev nD) : S16.Idx → BitVec 32 := m ((c : Thread nD τ).loc main_arg1)
abbrev wA (c : Dev nD) : S1024x1024.Idx → EReal := m ((c : Thread nD τ).loc main_arg2)
abbrev bA (c : Dev nD) : S1024.Idx → EReal := m ((c : Thread nD τ).loc main_arg3)
abbrev aA (c : Dev nD) : S11x1024x4.Idx → EReal := m ((c : Thread nD τ).loc main_arg4)
abbrev bbA (c : Dev nD) : S11x4x1024.Idx → EReal := m ((c : Thread nD τ).loc main_arg5)

/-! ## What the host prepared before the launch -/

/-- The flattened input: row `n` is frame `n / 196`, token `n % 196`. -/
theorem V_x_apply (c : Dev nD) (n : Fin 25088) (k : Fin 1024) :
    (V m c main_call0_v4 : S25088x1024.Idx → EReal) (ix2 n k)
      = xA m c (ix3 (⟨n.val / 196, by have := n.isLt; omega⟩ : Fin 128) (⟨n.val % 196, Nat.mod_lt _ (by decide)⟩ : Fin 196) k) := by
  have e : (V m c main_call0_v4 : S25088x1024.Idx → EReal)
      = shapeCast S25088x1024 (xA m c) shapeCasts_S128x196x1024_S25088x1024 := by
    dsimp only [V, V0]
    simp only [hostOps0, List.flatten_cons, List.flatten_nil, List.append_nil, List.cons_append, List.nil_append]
    after_results
    rfl
  rw [e]
  refine shapeCast_apply (xA m c) shapeCasts_S128x196x1024_S25088x1024 _ _ ?_
  rw [Shape.rowMajor_val_three, Shape.rowMajor_val_two]
  show (n.val / 196 * 196 + n.val % 196) * 1024 + k.val = n.val * 1024 + k.val
  have := Nat.div_add_mod' n.val 196
  rw [this]

/-- The transposed weight: entry `(i, o)` is `W (o, i)` (its narrowing to bf16 is the identity on extended reals). -/
theorem V_w_apply (c : Dev nD) (k : Fin 1024) (q : Fin 1024) :
    (V m c main_call0_v2 : S1024x1024.Idx → EReal) (ix2 k q) = wA m c (ix2 q k) := by
  have e : (V m c main_call0_v2 : S1024x1024.Idx → EReal)
      = truncf (F := Ideal) .bf16 (transpose S1024x1024 [1, 0] (wA m c) transposes_S1024x1024_S1024x1024_1_0) bitsLt_bf16_f32 := by
    dsimp only [V, V0]
    simp only [hostOps0, List.flatten_cons, List.flatten_nil, List.append_nil, List.cons_append, List.nil_append]
    after_results
    rfl
  rw [e]
  exact transpose_ix2_apply (wA m c) transposes_S1024x1024_S1024x1024_1_0 k q

/-- The bias as a row. -/
theorem V_b_apply (c : Dev nD) (u : Fin 1) (q : Fin 1024) :
    (V m c main_call0_v3 : S1x1024.Idx → EReal) (ix2 u q) = bA m c (ix1 q) := by
  have e : (V m c main_call0_v3 : S1x1024.Idx → EReal) = shapeCast S1x1024 (bA m c) shapeCasts_S1024_S1x1024 := by
    dsimp only [V, V0]
    simp only [hostOps0, List.flatten_cons, List.flatten_nil, List.append_nil, List.cons_append, List.nil_append]
    after_results
    rfl
  rw [e]
  exact shapeCast_a_1a_apply (bA m c) shapeCasts_S1024_S1x1024 u q

/-! ## The blocks at a grid point, as entries of the arguments -/

variable (hO : Ok m)

/-- The frame and token of row `p` of group `t`. -/
abbrev frameOf (t : Fin (cfgM m hO).N) (p : Fin 1568) : Fin 128 :=
  ⟨(t.val * 1568 + p.val) / 196, by have := t.isLt; have h : (cfgM m hO).N = 16 := N_0; have := p.isLt; omega⟩
abbrev tokenOf (t : Fin (cfgM m hO).N) (p : Fin 1568) : Fin 196 :=
  ⟨(t.val * 1568 + p.val) % 196, Nat.mod_lt _ (by decide)⟩

theorem iblk0_apply (c : Dev nD) (t : Fin (cfgM m hO).N) (p : Fin 1568) (k : Fin 1024) :
    iblk m hO c 0 t (ix2 p k) = xA m c (ix3 (frameOf m hO t p) (tokenOf m hO t p) k) := by
  unfold iblk
  refine (read0 (adm m hO) t (V m c (Pipeline.arrRef spec0 0)) p k).trans ?_
  exact V_x_apply m c _ k

theorem iblk1_apply (c : Dev nD) (t : Fin (cfgM m hO).N) (k : Fin 1024) (q : Fin 1024) :
    iblk m hO c 1 t (ix2 k q) = wA m c (ix2 q k) := by
  unfold iblk
  refine (read1 (adm m hO) t (V m c (Pipeline.arrRef spec0 1)) k q).trans ?_
  exact V_w_apply m c k q

theorem iblk4_apply (c : Dev nD) (t : Fin (cfgM m hO).N) (u : Fin 1) (q : Fin 1024) :
    iblk m hO c 4 t (ix2 u q) = bA m c (ix1 q) := by
  unfold iblk
  refine (read4 (adm m hO) t (V m c (Pipeline.arrRef spec0 4)) u q).trans ?_
  exact V_b_apply m c u q

/-- The table's entry at point `t` is the view of group `t`, which is the group of every frame of the point's rows. -/
theorem table_view (c : Dev nD) (t : Fin (cfgM m hO).N) (p : Fin 1568) :
    ((adm m hO).1 0 (tix (grid0.coords t))).toNat = (view (idxA m c) (grp (frameOf m hO t p))).val := by
  obtain rfl : c = 0 := Subsingleton.elim _ _
  show (tbl m 0 (tix (grid0.coords t))).toNat = (clampw (idxA m 0 (ix1 (grp (frameOf m hO t p))))).toNat
  rw [tbl_apply]
  refine congrArg (fun q => (clampw (idxA m 0 q)).toNat) ?_
  funext d
  match d with
  | ⟨0, _⟩ =>
    refine Fin.ext ?_
    have h1 := tix_coords (adm m hO) t
    have := t.isLt; have h : (cfgM m hO).N = 16 := N_0; have := p.isLt
    show (tix (grid0.coords t) 0).val = (t.val * 1568 + p.val) / 196 / 8
    omega

theorem iblk2_apply (c : Dev nD) (t : Fin (cfgM m hO).N) (p : Fin 1568) (u : Fin 1) (k : Fin 1024) (r : Fin 4) :
    iblk m hO c 2 t (ix3 u k r) = aA m c (ix3 (view (idxA m c) (grp (frameOf m hO t p))) k r) := by
  unfold iblk
  refine (read2 (adm m hO) t (V m c (Pipeline.arrRef spec0 2)) _ (table_view m hO c t p) u k r).trans ?_
  exact congrFun (V_main_arg4 m c) _

theorem iblk3_apply (c : Dev nD) (t : Fin (cfgM m hO).N) (p : Fin 1568) (u : Fin 1) (r : Fin 4) (q : Fin 1024) :
    iblk m hO c 3 t (ix3 u r q) = bbA m c (ix3 (view (idxA m c) (grp (frameOf m hO t p))) r q) := by
  unfold iblk
  refine (read3 (adm m hO) t (V m c (Pipeline.arrRef spec0 3)) _ (table_view m hO c t p) u r q).trans ?_
  exact congrFun (V_main_arg5 m c) _

/-! ## The flattened result -/

/-- The `25088 × 1024` array the launch leaves: row `n` is frame `n / 196`, token `n % 196`. -/
def arr2 (c : Dev nD) : S25088x1024.Idx → EReal := fun i =>
  out (xA m c) (idxA m c) (wA m c) (bA m c) (aA m c) (bbA m c)
    (⟨(i 0).val / 196, by have : (i 0).val < 25088 := (i 0).isLt; omega⟩ : Fin 128)
    (⟨(i 0).val % 196, Nat.mod_lt _ (by decide)⟩ : Fin 196)
    (⟨(i 1).val, (i 1).isLt⟩ : Fin 1024)

/-- What point `t` writes back is its block of that array. -/
theorem flushed_eq (c : Dev nD) (t : Fin (cfgM m hO).N) (hf : ((cfgM m hO).win 5).flush t = true) :
    (dats m hO 0 c).flushed 5 t = (((cfgM m hO).win 5).blk t).view.read (Elt Ideal) (arr2 m c) := by
  show ((cfgM m hO).win 5).cut (grid0.coords t) ((dats m hO 0 c).after 5 t) = _
  rw [after0_5]
  unfold outsAt0
  refine funext fun (y : S1568x1024.Idx) => ?_
  obtain ⟨p, q, rfl⟩ : ∃ (p : Fin 1568) (q : Fin 1024), y = ix2 p q := ⟨y 0, y 1, eq_ix2 y⟩
  refine (congrFun (out_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0)) (ix2 p q)).trans ?_
  refine (pay_apply (iblk m hO c 0 t) (iblk m hO c 1 t) (iblk m hO c 2 t) (iblk m hO c 3 t) (iblk m hO c 4 t) p q).trans ?_
  refine Eq.trans ?_ (read5 (adm m hO) t (arr2 m c) p q).symm
  show _ = out (xA m c) (idxA m c) (wA m c) (bA m c) (aA m c) (bbA m c) (frameOf m hO t p) (tokenOf m hO t p) q
  unfold out base lowrank proj
  refine congrArg₂ (· + ·) (congrArg₂ (· + ·) ?_ ?_) ?_
  · exact Finset.sum_congr rfl fun k _ => congrArg₂ (· * ·) (iblk0_apply m hO c t p k) (iblk1_apply m hO c t k q)
  · exact Finset.sum_congr rfl fun r _ => congrArg₂ (· * ·)
      (Finset.sum_congr rfl fun k _ => congrArg₂ (· * ·) (iblk0_apply m hO c t p k) (iblk2_apply m hO c t p 0 k r))
      (iblk3_apply m hO c t p 0 r q)
  · exact iblk4_apply m hO c t 0 q

/-- The sixteen blocks cover the array: after the launch it is `arr2`. -/
theorem final (c : Dev nD) : (dats m hO 0 c).arrAt 5 (cfgM m hO).N = arr2 m c :=
  (dats m hO 0 c).arrAt_eq_of_cover 5 (arr2 m c) (fun t hf => flushed_eq m hO c t hf) (cover5 (adm m hO))

/-- The host's last reshape: the result at `(f, t, o)` is the flattened result at row `196 f + t`. -/
theorem result (c : Dev nD) :
    Pipeline.afterTail pcfgs (fun _ => adm m hO) (dats m hO) 0 (V0 m) [hostOps1] c main_v0
      = outArr (xA m c) (idxA m c) (wA m c) (bA m c) (aA m c) (bbA m c) := by
  unfold Pipeline.afterTail
  show StableHlo.after hostOps1 _ (Proc.devRef .tc main_v0) = _
  after_results
  refine Eq.trans (b := shapeCast S128x196x1024 (arr2 m c) shapeCasts_S25088x1024_S128x196x1024) ?_ ?_
  · have hw := (Pipeline.withArrays_arr spec0 winFacts0.arr_inj c (V0 m c)
      (fun w => (dats m hO 0 c).arrAt w (cfgM m hO).N) 5).trans (final m hO c)
    exact congrArg (fun z : S25088x1024.Idx → EReal => shapeCast S128x196x1024 z shapeCasts_S25088x1024_S128x196x1024) hw
  · funext j
    obtain ⟨f, t, o, rfl⟩ : ∃ (f : Fin 128) (t : Fin 196) (o : Fin 1024), j = ix3 f t o := ⟨j 0, j 1, j 2, eq_ix3 j⟩
    have hft : f.val * 196 + t.val < 25088 := by have := f.isLt; have := t.isLt; omega
    refine (shapeCast_apply (arr2 m c) shapeCasts_S25088x1024_S128x196x1024 (ix3 f t o)
      (ix2 (⟨f.val * 196 + t.val, hft⟩ : Fin 25088) o) ?_).trans ?_
    · rw [Shape.rowMajor_val_three, Shape.rowMajor_val_two]
      rfl
    · show out _ _ _ _ _ _ _ _ _ = out _ _ _ _ _ _ f t o
      have e1 : (⟨(f.val * 196 + t.val) / 196, by omega⟩ : Fin 128) = f := Fin.ext (by have := t.isLt; show (f.val * 196 + t.val) / 196 = f.val; omega)
      have e2 : (⟨(f.val * 196 + t.val) % 196, Nat.mod_lt _ (by decide)⟩ : Fin 196) = t := Fin.ext (by have := t.isLt; show (f.val * 196 + t.val) % 196 = t.val; omega)
      show out _ _ _ _ _ _ (⟨(f.val * 196 + t.val) / 196, _⟩ : Fin 128) (⟨(f.val * 196 + t.val) % 196, _⟩ : Fin 196) _ = _
      rw [e1, e2]

/-! ## The run -/

/-- Every weakly fair execution of the kernel's program terminates with the result at `Spec.outArr` of the
    arguments, the arguments unchanged. -/
theorem run : θ_run defs (onTc (τ := τ) (main (F := Ideal))) ⟨m, fun _ => 0, ρ⟩ fun r => ∀ c : Dev nD,
      r.2.mem ((c.tc : Thread nD τ).loc main_v0) = outArr (xA m c) (idxA m c) (wA m c) (bA m c) (aA m c) (bbA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have hO : Ok m := ok m
  (θ_run defs _ _).mono (fun _ h c => ⟨((h c).2 main_v0 (by decide : main_v0 ∈ Pipeline.restRefs sig spec0)).trans (result m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).1 2).trans (((dats m hO 0 c).arrAt_in 2 rfl _).trans ((A_eq m hO c 2).trans (V_main_arg4 m c))),
      ((h c).1 3).trans (((dats m hO 0 c).arrAt_in 3 rfl _).trans ((A_eq m hO c 3).trans (V_main_arg5 m c)))⟩)
    (run_main m ρ hO)

end Cert.KernelIdeal.Value

end
-- ==== Proof.RefValue.lean ====
/-
  The reference, over the extended reals, is `Spec.out` with the bias added before the low-rank term.

  jnp computes `einsum (x, W) + b`, repeats each view word eight times (a broadcast to `16 × 8` and a reshape to
  128: frame `f` gets word `f / 8`), clamps into `0 … 10`, gathers `A` and `B` per frame, and adds the two
  batched products. Indexing `A[curr]` with possibly negative words first adds 11 to a negative word: a
  clamped word is never negative, so that select keeps it (`Spec.clampw_not_neg`); and the gather's own
  clamp of its start index into `0 … 10` leaves a word that is already there (`Spec.clampw_toInt_toNat`,
  `Spec.clampw_toNat`). So frame `f` reads view `Spec.view idx (f / 8)`, and each contraction is the plain sum
  of products along its one contracted axis.
-/
import proofs.«400782_j43319040147751_3_alg».proof.Proof.Gen.ReferenceIdeal.Read
import proofs.«400782_j43319040147751_3_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Spec
open Idealize.ShloMosaic Idealize.ShloMosaic.TcCoe Idealize.SL.Sem Idealize.ShloMosaic.ValueIdx

/-! ## The two gathers read at an index -/

abbrev GA := gather_S11x1024x4_S128x1_S128x1024x4_12_0_n_n_0_1_110244
abbrev GB := gather_S11x4x1024_S128x1_S128x4x1024_12_0_n_n_0_1_141024

/-- Result entry `(f, k, r)` reads its start word at `(f, 0)` of the index column. -/
theorem siA (f : Fin 128) (k : Fin 1024) (r : Fin 4) (c : Fin GA.startIndexMap.length) :
    GA.siIdx (ix3 f k r) c = ix2 f (0 : Fin 1) := by
  funext b
  refine Fin.ext ?_
  match b with
  | ⟨0, _⟩ => rfl
  | ⟨1, _⟩ => have := c.isLt; have h : GA.startIndexMap.length = 1 := rfl; show c.val = 0; omega

theorem siB (f : Fin 128) (r : Fin 4) (o : Fin 1024) (c : Fin GB.startIndexMap.length) :
    GB.siIdx (ix3 f r o) c = ix2 f (0 : Fin 1) := by
  funext b
  refine Fin.ext ?_
  match b with
  | ⟨0, _⟩ => rfl
  | ⟨1, _⟩ => have := c.isLt; have h : GB.startIndexMap.length = 1 := rfl; show c.val = 0; omega

/-- The gather of `A`: entry `(f, k, r)` is `A` at the view the start word names (read signed, clamped into
    `0 … 10`), row `k`, column `r`: axis 0 is collapsed and indexed, axes 1 and 2 are taken whole. -/
theorem gatherA_apply {α : Type} (x : S11x1024x4.Idx → α) (idx : IVec S128x1 32) (f : Fin 128) (k : Fin 1024) (r : Fin 4) :
    Host.gather GA x idx (ix3 f k r)
      = x (ix3 (⟨min (idx (ix2 f (0 : Fin 1))).toInt.toNat 10, Nat.lt_succ_of_le (Nat.min_le_right _ _)⟩ : Fin 11) k r) := by
  unfold Host.gather
  refine congrArg x ?_
  funext a
  refine Fin.ext ?_
  match a with
  | ⟨0, _⟩ =>
    show GA.start (ix3 f k r) idx 0 + GA.batchCoord (ix3 f k r) 0 + GA.offCoord (ix3 f k r) 0 = min (idx (ix2 f (0 : Fin 1))).toInt.toNat 10
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ GA.startIndexMap from List.mem_singleton.mpr rfl), siA]
    rfl
  | ⟨1, _⟩ =>
    show GA.start (ix3 f k r) idx 1 + GA.batchCoord (ix3 f k r) 1 + GA.offCoord (ix3 f k r) 1 = k.val
    rw [GatherDims.batchCoord_eq_zero _ _ _ List.not_mem_nil]
    unfold GatherDims.start GatherDims.offCoord
    rw [dif_neg (show ¬ (1 : Fin 3) ∈ GA.startIndexMap by decide), dif_pos (show (1 : Fin 3) ∈ GA.sKept by decide)]
    show 0 + 0 + k.val = k.val
    omega
  | ⟨2, _⟩ =>
    show GA.start (ix3 f k r) idx 2 + GA.batchCoord (ix3 f k r) 2 + GA.offCoord (ix3 f k r) 2 = r.val
    rw [GatherDims.batchCoord_eq_zero _ _ _ List.not_mem_nil]
    unfold GatherDims.start GatherDims.offCoord
    rw [dif_neg (show ¬ (2 : Fin 3) ∈ GA.startIndexMap by decide), dif_pos (show (2 : Fin 3) ∈ GA.sKept by decide)]
    show 0 + 0 + r.val = r.val
    omega

/-- The gather of `B`, the same way. -/
theorem gatherB_apply {α : Type} (x : S11x4x1024.Idx → α) (idx : IVec S128x1 32) (f : Fin 128) (r : Fin 4) (o : Fin 1024) :
    Host.gather GB x idx (ix3 f r o)
      = x (ix3 (⟨min (idx (ix2 f (0 : Fin 1))).toInt.toNat 10, Nat.lt_succ_of_le (Nat.min_le_right _ _)⟩ : Fin 11) r o) := by
  unfold Host.gather
  refine congrArg x ?_
  funext a
  refine Fin.ext ?_
  match a with
  | ⟨0, _⟩ =>
    show GB.start (ix3 f r o) idx 0 + GB.batchCoord (ix3 f r o) 0 + GB.offCoord (ix3 f r o) 0 = min (idx (ix2 f (0 : Fin 1))).toInt.toNat 10
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ GB.startIndexMap from List.mem_singleton.mpr rfl), siB]
    rfl
  | ⟨1, _⟩ =>
    show GB.start (ix3 f r o) idx 1 + GB.batchCoord (ix3 f r o) 1 + GB.offCoord (ix3 f r o) 1 = r.val
    rw [GatherDims.batchCoord_eq_zero _ _ _ List.not_mem_nil]
    unfold GatherDims.start GatherDims.offCoord
    rw [dif_neg (show ¬ (1 : Fin 3) ∈ GB.startIndexMap by decide), dif_pos (show (1 : Fin 3) ∈ GB.sKept by decide)]
    show 0 + 0 + r.val = r.val
    omega
  | ⟨2, _⟩ =>
    show GB.start (ix3 f r o) idx 2 + GB.batchCoord (ix3 f r o) 2 + GB.offCoord (ix3 f r o) 2 = o.val
    rw [GatherDims.batchCoord_eq_zero _ _ _ List.not_mem_nil]
    unfold GatherDims.start GatherDims.offCoord
    rw [dif_neg (show ¬ (2 : Fin 3) ∈ GB.startIndexMap by decide), dif_pos (show (2 : Fin 3) ∈ GB.sKept by decide)]
    show 0 + 0 + o.val = o.val
    omega

/-! ## The per-frame view words -/

variable (x1 : (⟨S16, .i32⟩ : BufTy).Contents (Elt Ideal))

/-- Frame `f`'s word after the repeat and the clamp: the clamp of word `f / 8`. -/
theorem v6_apply (f : Fin 128) : val_main_v6 (F := Ideal) x1 (ix1 f) = clampw (x1 (ix1 (grp f))) := by
  rw [val_main_v6_apply, val_main_call0_v4_apply, val_main_call0_v3_apply, val_main_c_0_apply, val_main_call0_v2_apply,
    val_main_call0_v1_apply, val_main_call0_v0_apply, val_main_c_apply, val_main_v5_apply, val_main_v4_apply]
  unfold clampw
  refine congrArg (fun w => IntOp.minsi 10#32 (IntOp.maxsi 0#32 (x1 w))) ?_
  funext a
  match a with
  | ⟨0, _⟩ => rfl

/-- Making a negative index count from the end leaves a clamped word as it is (the `A` path). -/
theorem v11_apply (f : Fin 128) : val_main_v11 (F := Ideal) x1 (ix1 f) = clampw (x1 (ix1 (grp f))) := by
  rw [val_main_v11_apply, val_main_v8_apply, val_main_v7_apply, val_main_c_1_apply, v6_apply, clampw_not_neg, select_zero]
/-- (the `B` path). -/
theorem v18_apply (f : Fin 128) : val_main_v18 (F := Ideal) x1 (ix1 f) = clampw (x1 (ix1 (grp f))) := by
  rw [val_main_v18_apply, val_main_v15_apply, val_main_v14_apply, val_main_c_3_apply, v6_apply, clampw_not_neg, select_zero]

/-- The index column's entry `(f, 0)`. -/
theorem v12_apply (f : Fin 128) : val_main_v12 (F := Ideal) x1 (ix2 f (0 : Fin 1)) = clampw (x1 (ix1 (grp f))) := by
  rw [val_main_v12_apply]
  refine Eq.trans (congrArg (val_main_v11 (F := Ideal) x1) ?_) (v11_apply x1 f)
  funext a
  match a with
  | ⟨0, _⟩ => rfl
theorem v19_apply (f : Fin 128) : val_main_v19 (F := Ideal) x1 (ix2 f (0 : Fin 1)) = clampw (x1 (ix1 (grp f))) := by
  rw [val_main_v19_apply]
  refine Eq.trans (congrArg (val_main_v18 (F := Ideal) x1) ?_) (v18_apply x1 f)
  funext a
  match a with
  | ⟨0, _⟩ => rfl

/-- The gather's own clamp keeps a clamped word: it names `Spec.view`. -/
theorem start_view (f : Fin 128) (w : BitVec 32) (hw : w = clampw (x1 (ix1 (grp f)))) :
    (⟨min w.toInt.toNat 10, Nat.lt_succ_of_le (Nat.min_le_right _ _)⟩ : Fin 11) = view x1 (grp f) := by
  subst hw
  refine Fin.ext ?_
  show min _ 10 = (clampw _).toNat
  rw [clampw_toInt_toNat]
  exact Nat.min_eq_left (clampw_toNat _)

/-! ## The three contractions, and the result -/

variable (x0 : (⟨S128x196x1024, .f32⟩ : BufTy).Contents (Elt Ideal)) (x2 : (⟨S1024x1024, .f32⟩ : BufTy).Contents (Elt Ideal))
  (x3 : (⟨S1024, .f32⟩ : BufTy).Contents (Elt Ideal)) (x4 : (⟨S11x1024x4, .f32⟩ : BufTy).Contents (Elt Ideal))
  (x5 : (⟨S11x4x1024, .f32⟩ : BufTy).Contents (Elt Ideal))

/-- The gathered `A` of frame `f` is the `A` of its group's view. -/
theorem v13_apply (f : Fin 128) (k : Fin 1024) (r : Fin 4) :
    val_main_v13 (F := Ideal) x1 x4 (ix3 f k r) = x4 (ix3 (view x1 (grp f)) k r) := by
  unfold val_main_v13
  refine (gatherA_apply x4 (val_main_v12 (F := Ideal) x1) f k r).trans ?_
  rw [start_view x1 f _ (v12_apply x1 f)]

theorem v20_apply (f : Fin 128) (r : Fin 4) (o : Fin 1024) :
    val_main_v20 (F := Ideal) x1 x5 (ix3 f r o) = x5 (ix3 (view x1 (grp f)) r o) := by
  unfold val_main_v20
  refine (gatherB_apply x5 (val_main_v19 (F := Ideal) x1) f r o).trans ?_
  rw [start_view x1 f _ (v19_apply x1 f)]

/-- The base term. -/
theorem v0_apply (f : Fin 128) (t : Fin 196) (o : Fin 1024) :
    val_main_v0 (F := Ideal) x0 x2 (ix3 f t o) = base x0 x2 f t o := by
  rw [val_main_v0_apply]
  unfold base
  refine Finset.sum_congr rfl fun k _ => ?_
  refine congrArg₂ (· * ·) (congrArg x0 ?_) (congrArg x2 ?_)
  · funext a; match a with | ⟨0, _⟩ => rfl | ⟨1, _⟩ => rfl | ⟨2, _⟩ => rfl
  · funext a; match a with | ⟨0, _⟩ => rfl | ⟨1, _⟩ => rfl

/-- The bias, broadcast over frames and tokens. -/
theorem v2_apply (f : Fin 128) (t : Fin 196) (o : Fin 1024) :
    val_main_v2 (F := Ideal) x3 (ix3 f t o) = x3 (ix1 o) := by
  rw [val_main_v2_apply, val_main_v1_apply]
  refine congrArg x3 ?_
  funext a; match a with | ⟨0, _⟩ => rfl

/-- The projection onto the four low-rank directions of the frame's view. -/
theorem v21_apply (f : Fin 128) (t : Fin 196) (r : Fin 4) :
    val_main_v21 (F := Ideal) x0 x1 x4 (ix3 f t r) = proj x0 x4 (view x1 (grp f)) f t r := by
  rw [val_main_v21_apply]
  unfold proj
  refine Finset.sum_congr rfl fun k _ => ?_
  refine congrArg₂ (· * ·) (congrArg x0 ?_) ?_
  · funext a; match a with | ⟨0, _⟩ => rfl | ⟨1, _⟩ => rfl | ⟨2, _⟩ => rfl
  · refine Eq.trans (congrArg (val_main_v13 (F := Ideal) x1 x4) ?_) (v13_apply x1 x4 f k r)
    funext a; match a with | ⟨0, _⟩ => rfl | ⟨1, _⟩ => rfl | ⟨2, _⟩ => rfl

/-- The low-rank term. -/
theorem v22_apply (f : Fin 128) (t : Fin 196) (o : Fin 1024) :
    val_main_v22 (F := Ideal) x0 x1 x4 x5 (ix3 f t o) = lowrank x0 x4 x5 (view x1 (grp f)) f t o := by
  rw [val_main_v22_apply]
  unfold lowrank
  refine Finset.sum_congr rfl fun r _ => ?_
  refine congrArg₂ (· * ·) ?_ ?_
  · refine Eq.trans (congrArg (val_main_v21 (F := Ideal) x0 x1 x4) ?_) (v21_apply x1 x0 x4 f t r)
    funext a; match a with | ⟨0, _⟩ => rfl | ⟨1, _⟩ => rfl | ⟨2, _⟩ => rfl
  · refine Eq.trans (congrArg (val_main_v20 (F := Ideal) x1 x5) ?_) (v20_apply x1 x5 f r o)
    funext a; match a with | ⟨0, _⟩ => rfl | ⟨1, _⟩ => rfl | ⟨2, _⟩ => rfl

/-- THE REFERENCE'S RESULT is `Spec.outArr` of its arguments: `(base + bias) + low-rank`, regrouped. -/
theorem ref_eq : val_main_v23 (F := Ideal) x0 x1 x2 x3 x4 x5 = outArr x0 x1 x2 x3 x4 x5 := by
  funext j
  obtain ⟨f, t, o, rfl⟩ : ∃ (f : Fin 128) (t : Fin 196) (o : Fin 1024), j = ix3 f t o := ⟨j 0, j 1, j 2, eq_ix3 j⟩
  rw [val_main_v23_apply, val_main_v3_apply, v0_apply, v2_apply, v22_apply]
  show (base x0 x2 f t o + x3 (ix1 o)) + lowrank x0 x4 x5 (view x1 (grp f)) f t o = out x0 x1 x2 x3 x4 x5 f t o
  unfold out
  exact (regroup _ _ _).symm

end Cert.ReferenceIdeal.RefValue

end
-- ==== Proof.lean ====
/-
  A linear layer with a per-view low-rank correction, against its jnp reference, over the extended reals.

  For 128 frames of 196 tokens of 1024 features, with sixteen view words (one per group of eight frames, clamped
  into 0 … 10), both programs compute

      out (f, t, o) = ∑ᵢ x (f, t, i) · W (o, i) + ∑ᵣ (∑ᵢ x (f, t, i) · A (v f) (i, r)) · B (v f) (r, o) + b o

  (Proof/Spec.lean). The kernel runs one grid point per group over the flattened rows, its index maps reading the
  clamped words from a table; the clamp is what keeps every block the table names inside the eleven-view arrays
  (Proof/TableIdeal.lean, and its copy for the word-level program), so the frames hold of every memory. At the
  ideal values the kernel's result is read off its frame run (Proof/Body.lean, Proof/Blocks.lean,
  Proof/KernelValue.lean) and the reference's off its run (Proof/RefValue.lean); the two group the three summands
  differently, which addition on the extended reals does not see. No finiteness is used.
-/
import proofs.«400782_j43319040147751_3_alg».proof.Defs
import proofs.«400782_j43319040147751_3_alg».proof.Proof.Gen.Kernel
import proofs.«400782_j43319040147751_3_alg».proof.Proof.Gen.Kernel.Skeleton
import proofs.«400782_j43319040147751_3_alg».proof.Proof.Gen.Kernel.Launch
import proofs.«400782_j43319040147751_3_alg».proof.Proof.Gen.Kernel.Points
import proofs.«400782_j43319040147751_3_alg».proof.Proof.Gen.Kernel.Frame
import proofs.«400782_j43319040147751_3_alg».proof.Proof.Gen.KernelIdeal
import proofs.«400782_j43319040147751_3_alg».proof.Proof.Gen.KernelIdeal.Skeleton
import proofs.«400782_j43319040147751_3_alg».proof.Proof.Gen.KernelIdeal.Launch
import proofs.«400782_j43319040147751_3_alg».proof.Proof.Gen.KernelIdeal.Points
import proofs.«400782_j43319040147751_3_alg».proof.Proof.Gen.KernelIdeal.Frame
import proofs.«400782_j43319040147751_3_alg».proof.Proof.Gen.ReferenceIdeal
import proofs.«400782_j43319040147751_3_alg».proof.Proof.Gen.ReferenceIdeal.Run
import proofs.«400782_j43319040147751_3_alg».proof.Proof.Gen.ReferenceIdeal.Read
import proofs.«400782_j43319040147751_3_alg».proof.Proof.Gen.Pre_finite_inputs
import proofs.«400782_j43319040147751_3_alg».proof.Proof.TableKernel
import proofs.«400782_j43319040147751_3_alg».proof.Proof.TableIdeal
import proofs.«400782_j43319040147751_3_alg».proof.Proof.KernelValue
import proofs.«400782_j43319040147751_3_alg».proof.Proof.RefValue
import Idealize.ShloMosaic.Adequacy
import Idealize.ShloMosaic.Init

noncomputable section

namespace Cert.Proof

open Idealize.ShloMosaic Idealize.SL.Sem

/-- The word-level program runs and keeps its arguments: the table it reads is clamped, so its blocks are in range. -/
theorem frame_k : Cert.frame_Kernel := fun m ρ _ => Cert.Kernel.Gen.frame m ρ (Cert.Kernel.Tab.ok m)

/-- So does the idealized program. -/
theorem frame_ki : Cert.frame_KernelIdeal := fun m ρ _ => Cert.KernelIdeal.Gen.frame m ρ (Cert.KernelIdeal.Tab.ok m)

/-- The reference runs and keeps its arguments: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with `Spec.outArr` of arguments that agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
